-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x512x512 : Shape := ⟨4, ![16, 3, 512, 512]⟩
abbrev S_ : Shape := ⟨0, ![]⟩

class Facts : Prop where
  bcast_S_S16x3x512x512 : S_.BroadcastsInDim S16x3x512x512 (![] : Fin 0 → Fin S16x3x512x512.rank)
  reducesTo_S16x3x512x512_S_d0_1_2_3 : S16x3x512x512.ReducesTo [0, 1, 2, 3] S_
  h_S_ : 0 < S_.numel

variable [Facts]

def fn {F : FTy → Type} [FloatOps F] (main_arg0 : FVec F S16x3x512x512 .f32) (main_arg1 : FVec F S16x3x512x512 .f32) (main_arg2 : FVec F S16x3x512x512 .f32) : IVec S_ 1 :=
  let main_v0 : FVec F S16x3x512x512 .f32 := Host.absf main_arg0
  let main_cst : FVec F S_ .f32 := constant S_ .f32 0x7F800000#32
  let main_v1 : FVec F S16x3x512x512 .f32 := broadcastInDim S16x3x512x512 ![] bcast_S_S16x3x512x512 main_cst
  let main_v2 : IVec S16x3x512x512 1 := cmpf .olt main_v0 main_v1
  let main_c : IVec S_ 1 := constantI S_ 1 1#1
  let main_v3 : IVec S_ 1 := (fun x v => Host.reduce IntOp.andi x v reducesTo_S16x3x512x512_S_d0_1_2_3 h_S_) main_v2 main_c
  let main_v4 : FVec F S16x3x512x512 .f32 := Host.absf main_arg1
  let main_cst_0 : FVec F S_ .f32 := constant S_ .f32 0x7F800000#32
  let main_v5 : FVec F S16x3x512x512 .f32 := broadcastInDim S16x3x512x512 ![] bcast_S_S16x3x512x512 main_cst_0
  let main_v6 : IVec S16x3x512x512 1 := cmpf .olt main_v4 main_v5
  let main_c_1 : IVec S_ 1 := constantI S_ 1 1#1
  let main_v7 : IVec S_ 1 := (fun x v => Host.reduce IntOp.andi x v reducesTo_S16x3x512x512_S_d0_1_2_3 h_S_) main_v6 main_c_1
  let main_v8 : IVec S_ 1 := andi main_v3 main_v7
  let main_v9 : FVec F S16x3x512x512 .f32 := Host.absf main_arg2
  let main_cst_2 : FVec F S_ .f32 := constant S_ .f32 0x7F800000#32
  let main_v10 : FVec F S16x3x512x512 .f32 := broadcastInDim S16x3x512x512 ![] bcast_S_S16x3x512x512 main_cst_2
  let main_v11 : IVec S16x3x512x512 1 := cmpf .olt main_v9 main_v10
  let main_c_3 : IVec S_ 1 := constantI S_ 1 1#1
  let main_v12 : IVec S_ 1 := (fun x v => Host.reduce IntOp.andi x v reducesTo_S16x3x512x512_S_d0_1_2_3 h_S_) main_v11 main_c_3
  let main_v13 : IVec S_ 1 := andi main_v8 main_v12
  main_v13
-- ==== Kernel.lean ====
abbrev S16x3x512x512 : Shape := ⟨4, ![16, 3, 512, 512]⟩
abbrev S1x1 : Shape := ⟨2, ![1, 1]⟩
abbrev S1x3x512x512 : Shape := ⟨4, ![1, 3, 512, 512]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 5
  | .vmem => 8
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .f32⟩
  | .hbm, ⟨3, _⟩ => ⟨S1x1, .f32⟩
  | .hbm, ⟨4, _⟩ => ⟨S_, .f32⟩
  | .local _ .vmem, ⟨0, _⟩ => ⟨S1x3x512x512, .f32⟩
  | .local _ .vmem, ⟨1, _⟩ => ⟨S1x3x512x512, .f32⟩
  | .local _ .vmem, ⟨2, _⟩ => ⟨S1x3x512x512, .f32⟩
  | .local _ .vmem, ⟨3, _⟩ => ⟨S1x3x512x512, .f32⟩
  | .local _ .vmem, ⟨4, _⟩ => ⟨S1x3x512x512, .f32⟩
  | .local _ .vmem, ⟨5, _⟩ => ⟨S1x3x512x512, .f32⟩
  | .local _ .vmem, ⟨6, _⟩ => ⟨S1x1, .f32⟩
  | .local _ .vmem, ⟨7, _⟩ => ⟨S1x1, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v132 : BitVec 1 := Scalar.cmpi .eq arg0 c15_i32
  let v133 : BitVec 32 := Scalar.extui v132
  let c0_i32_71 : BitVec 32 := 0#32
  let v134 : BitVec 1 := Scalar.cmpi .ne v133 c0_i32_71
  v134

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3x512x512_S1x1x512x512_0_0_0_0 : ∀ a, (![0, 0, 0, 0] : Fin 4 → Nat) a + S1x1x512x512.size a ≤ S1x3x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  inb_S1x3x512x512_S1x1x512x512_0_1_0_0 : ∀ a, (![0, 1, 0, 0] : Fin 4 → Nat) a + S1x1x512x512.size a ≤ S1x3x512x512.size a
  inb_S1x3x512x512_S1x1x512x512_0_2_0_0 : ∀ a, (![0, 2, 0, 0] : Fin 4 → Nat) a + S1x1x512x512.size a ≤ S1x3x512x512.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x512x512.size a ≤ S16x3x512x512.size a
  hwx0_0 : ∀ i : grid0.Coords, EltTy.bits .f32 = 32 ∨ (Rect.block (s := S16x3x512x512) S1x3x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x512x512.size a ≤ S16x3x512x512.size a
  hwx0_2 : ∀ i : grid0.Coords, EltTy.bits .f32 = 32 ∨ (Rect.block (s := S16x3x512x512) S1x3x512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S1x3x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x3x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x3x512x512 : Shape := ⟨4, ![16, 3, 512, 512]⟩
abbrev S_ : Shape := ⟨0, ![]⟩
abbrev S16x3 : Shape := ⟨2, ![16, 3]⟩
abbrev S16x3x1x1 : Shape := ⟨4, ![16, 3, 1, 1]⟩
abbrev S16 : Shape := ⟨1, ![16]⟩

abbrev nBuf : Space → Nat
  | .hbm => 42
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S16x3x512x512, .f32⟩
  | .hbm, ⟨2, _⟩ => ⟨S16x3x512x512, .f32⟩
  | .hbm, ⟨3, _⟩ => ⟨S16x3x512x512, .f32⟩
  | .hbm, ⟨4, _⟩ => ⟨S16x3x512x512, .f32⟩
  | .hbm, ⟨5, _⟩ => ⟨S_, .f32⟩
  | .hbm, ⟨6, _⟩ => ⟨S16x3, .f32⟩
  | .hbm, ⟨7, _⟩ => ⟨S16x3x512x512, .f32⟩
  | .hbm, ⟨8, _⟩ => ⟨S16x3x512x512, .f32⟩
  | .hbm, ⟨9, _⟩ => ⟨S_, .f32⟩
  | .hbm, ⟨10, _⟩ => ⟨S16x3, .f32⟩
  | .hbm, ⟨11, _⟩ => ⟨S_, .f32⟩
  | .hbm, ⟨12, _⟩ => ⟨S16x3, .f32⟩
  | .hbm, ⟨13, _⟩ => ⟨S16x3, .i1⟩
  | .hbm, ⟨14, _⟩ => ⟨S_, .f32⟩
  | .hbm, ⟨15, _⟩ => ⟨S_, .f32⟩
  | .hbm, ⟨16, _⟩ => ⟨S16x3, .f32⟩
  | .hbm, ⟨17, _⟩ => ⟨S16x3, .f32⟩
  | .hbm, ⟨18, _⟩ => ⟨S16x3, .f32⟩
  | .hbm, ⟨19, _⟩ => ⟨S_, .f32⟩
  | .hbm, ⟨20, _⟩ => ⟨S_, .f32⟩
  | .hbm, ⟨21, _⟩ => ⟨S16x3, .f32⟩
  | .hbm, ⟨22, _⟩ => ⟨S16x3, .f32⟩
  | .hbm, ⟨23, _⟩ => ⟨S16x3x1x1, .f32⟩
  | .hbm, ⟨24, _⟩ => ⟨S16x3x512x512, .f32⟩
  | .hbm, ⟨25, _⟩ => ⟨S16x3x512x512, .f32⟩
  | .hbm, ⟨26, _⟩ => ⟨S16x3x512x512, .f32⟩
  | .hbm, ⟨27, _⟩ => ⟨S16x3x512x512, .f32⟩
  | .hbm, ⟨28, _⟩ => ⟨S16x3x512x512, .f32⟩
  | .hbm, ⟨29, _⟩ => ⟨S_, .f32⟩
  | .hbm, ⟨30, _⟩ => ⟨S16x3, .f32⟩
  | .hbm, ⟨31, _⟩ => ⟨S_, .f32⟩
  | .hbm, ⟨32, _⟩ => ⟨S16x3, .f32⟩
  | .hbm, ⟨33, _⟩ => ⟨S16x3, .f32⟩
  | .hbm, ⟨34, _⟩ => ⟨S_, .f32⟩
  | .hbm, ⟨35, _⟩ => ⟨S16, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩
abbrev main_cst_8 : Ref sig .tc := ⟨.hbm, 38, rfl⟩
abbrev main_v22 : Ref sig .tc := ⟨.hbm, 39, rfl⟩
abbrev main_cst_9 : Ref sig .tc := ⟨.hbm, 40, rfl⟩
abbrev main_v23 : Ref sig .tc := ⟨.hbm, 41, rfl⟩

abbrev nD : Nat := 1
abbrev τ : Topo := Topo.v7x

variable {F : FTy → Type} [FloatOps F]

class Facts₀ : Prop where
  reducesTo_S16x3x512x512_S16x3_d2_3 : S16x3x512x512.ReducesTo [2, 3] S16x3
  h_S_ : 0 < S_.numel
  bcast_S_S16x3 : S_.BroadcastsInDim S16x3 (![] : Fin 0 → Fin S16x3.rank)
  bcast_S16x3_S16x3x1x1_0_1 : S16x3.BroadcastsInDim S16x3x1x1 (![0, 1] : Fin 2 → Fin S16x3x1x1.rank)
  bcast_S16x3x1x1_S16x3x512x512_0_1_2_3 : S16x3x1x1.BroadcastsInDim S16x3x512x512 (![0, 1, 2, 3] : Fin 4 → Fin S16x3x512x512.rank)
  reducesTo_S16x3_S16_d1 : S16x3.ReducesTo [1] S16
  reducesTo_S16_S_d0 : S16.ReducesTo [0] S_

variable [Facts₀]

class Facts : Prop extends Facts₀ where

variable [Facts]
-- ==== Proof.ChannelTerm.lean ====
/-
  One slice of the kernel's body as a pure function, at any float instance.

  At a grid point the body reads, for each of the three channels k, the 512×512 slabs e (estimate), c (correct)
  and m (mask) of its three blocks, and forms

      v = Σ e·e·m        n = Σ c·e·m        a = n / v if v > 1e-5 (the shared f32 word), else 0
      q = (Σ m·(c − a·e)·(c − a·e)) / (Σ m)

  each Σ over the slab, lanes first and then rows, kept as a 1×1 vector.  It then stores, into the 1×1 scratch that
  holds s, the value  s + (((0 + q₀) + q₁) + q₂).  The body's text cuts this arithmetic into payloads at positions
  that do not follow the channels; below the same arithmetic is written once per channel (`quot`), the three
  channels are assembled (`accumulate`), and the body's nested payload term is shown to be exactly that.
-/
import proofs.«126468_j40819369181889_1_alg».proof.Proof.Gen.KernelIdeal.Skeleton

noncomputable section

namespace Cert.KernelIdeal.Channel

open Idealize.ShloMosaic Idealize.SL.Sem Cert.KernelIdeal Cert.KernelIdeal.Gen

variable {F : FTy → Type} [FloatOps F]

/-- The sum of a 512×512 slab: along the lanes to a column of 512, then down the column, as a 1×1 vector. -/
def slabTotal (X : FVec F S512x512 .f32) : FVec F S1x1 .f32 :=
  shapeCast S1x1
    (multiReduction .add [0] S1
      (shapeCast S512x1 (multiReduction .add [1] S512 X 0x00000000#32 reduces_S512x512_S512 (.inl rfl) rfl) shapeCasts_S512_S512x1)
      0x00000000#32 reduces_S512x1_S1 (.inl rfl) rfl)
    shapeCasts_S1_S1x1

/-- v = Σ e·e·m. -/
def energy (e m : FVec F S512x512 .f32) : FVec F S1x1 .f32 := slabTotal (mulf (mulf e e) m)

/-- n = Σ c·e·m. -/
def cross (e c m : FVec F S512x512 .f32) : FVec F S1x1 .f32 := slabTotal (mulf (mulf c e) m)

/-- Whether v exceeds the threshold word (1e-5 rounded to f32). -/
def exceeds (e m : FVec F S512x512 .f32) : IVec S1x1 1 :=
  cmpf .ogt (energy e m) (broadcast S1x1 (Scalar.ofBits .f32 0x3727C5AC#32))

/-- a = n / v where v exceeds the threshold (the divisor replaced by 1 where it does not), else 0. -/
def fit (e c m : FVec F S512x512 .f32) : FVec F S1x1 .f32 :=
  select (exceeds e m)
    (divf (cross e c m) (select (exceeds e m) (energy e m) (broadcast S1x1 (Scalar.ofBits .f32 0x3F800000#32))))
    (broadcast S1x1 (Scalar.ofBits .f32 0x00000000#32))

/-- a·e, the fitted estimate: a spread over the slab. -/
def fitted (e c m : FVec F S512x512 .f32) : FVec F S512x512 .f32 :=
  mulf (broadcastTo S512x512 (shapeCast S1x1 (fit e c m) shapeCasts_S1x1_S1x1) broadcasts_S1x1_S512x512) e

/-- m·(c − a·e)·(c − a·e), the masked squared residual. -/
def weighted (e c m : FVec F S512x512 .f32) : FVec F S512x512 .f32 :=
  mulf (mulf m (subf c (fitted e c m))) (subf c (fitted e c m))

/-- q = (Σ m·(c − a·e)²) / (Σ m). -/
def quot (e c m : FVec F S512x512 .f32) : FVec F S1x1 .f32 := divf (slabTotal (weighted e c m)) (slabTotal m)

/-- The zero 1×1 vector the body starts a slice's total from. -/
def zero11 : FVec F S1x1 .f32 := broadcast S1x1 (Scalar.ofBits .f32 0x00000000#32)

/-- What the body stores into the scratch holding `s`: s + (((0 + q₀) + q₁) + q₂). -/
def accumulate (s : Vec F S1x1 .f32) (e0 c0 m0 e1 c1 m1 e2 c2 m2 : FVec F S512x512 .f32) : FVec F S1x1 .f32 :=
  shapeCast S1x1 (addf s (addf (addf (addf zero11 (quot e0 c0 m0)) (quot e1 c1 m1)) (quot e2 c2 m2))) shapeCasts_S1x1_S1x1

/-- A loaded 1×1×512×512 channel viewed as its 512×512 slab. -/
abbrev slab (v : Vec F S1x1x512x512 .f32) : FVec F S512x512 .f32 := shapeCast S512x512 v shapeCasts_S1x1x512x512_S512x512

/-- The body's nested payload term — its positional cuts put channel 0's residual product in one payload, channel
    1's fitted estimate in another, channel 2's comparison and quotient of sums in two more — is `accumulate` of the nine
    slabs: the same operations in the same order, by unfolding. -/
theorem payload_eq (v4 v6 v8 v45 v47 v49 v86 v88 v90 : Vec F S1x1x512x512 .f32) (s : Vec F S1x1 .f32) :
    k0_pay1 (k0_pay11 (k0_pay7 k0_pay4 (k0_pay5 v8) (k0_pay6 v4 v6 v8)) (k0_pay8 v47) (k0_pay9 v49) (k0_pay10 v45 v47 v49))
      (k0_pay12 v86) (k0_pay13 v88) (k0_pay14 v90) (k0_pay16 v86 v90) (k0_pay17 v86 v88 v90) k0_pay18 s
    = accumulate s (slab v4) (slab v6) (slab v8) (slab v45) (slab v47) (slab v49) (slab v86) (slab v88) (slab v90) := rfl

/-- The value the body stores into its output at the last point: the scratch divided by the word of 48.0. -/
theorem final_eq (s : Vec F S1x1 .f32) :
    k0_pay2 s = divf s (broadcast S1x1 (Scalar.ofBits .f32 0x42400000#32)) := rfl

/-- The zero block the first point stores into the scratch before accumulating. -/
theorem reset_eq : (k0_pay3 : FVec F S1x1 .f32) = shapeCast S1x1 zero11 shapeCasts_S1x1_S1x1 := rfl

end Cert.KernelIdeal.Channel

end
-- ==== Proof.Pieces.lean ====
/-
  What each control case of the kernel's body leaves behind, as values.

  The body runs in three cases: the first grid point (the scratch is zeroed, then accumulated into), the middle points
  (accumulated into), and the last point (accumulated into, then the output receives the scratch divided by 48).
  In every case the scratch ends at `accumulate` (Proof/ChannelTerm.lean) of the previous scratch contents — the
  zero vector at the first point — and the nine channel slabs loaded from the point's three blocks: correct through
  the first window, estimate through the second, mask through the third.
-/
import proofs.«126468_j40819369181889_1_alg».proof.Proof.Gen.KernelIdeal.Frame
import proofs.«126468_j40819369181889_1_alg».proof.Proof.ChannelTerm
import Idealize.ShloMosaic.Lib.Pipeline.Value
import Idealize.ShloMosaic.Lib.Tactic

set_option maxRecDepth 16384

noncomputable section

namespace Cert.KernelIdeal.Channel

open Idealize.ShloMosaic Idealize.ShloMosaic.TcCoe Idealize.SL.Sem Cert.KernelIdeal Cert.KernelIdeal.Gen

variable {F : FTy → Type} [FloatOps F]

theorem zeros2 : (![0, 0] : Fin 2 → Nat) = fun _ => 0 := funext fun a => by fin_cases a <;> rfl

/-- Channel 0, 1, 2 of a [1,3,512,512] block, as a 512×512 slab: the load the body makes of it. -/
def chan0 (x : Vec F S1x3x512x512 .f32) : FVec F S512x512 .f32 :=
  slab (View.ld x (Rect.unit (s := S1x3x512x512) ![0, 0, 0, 0] S1x1x512x512.size inb_S1x3x512x512_S1x1x512x512_0_0_0_0))
def chan1 (x : Vec F S1x3x512x512 .f32) : FVec F S512x512 .f32 :=
  slab (View.ld x (Rect.unit (s := S1x3x512x512) ![0, 1, 0, 0] S1x1x512x512.size inb_S1x3x512x512_S1x1x512x512_0_1_0_0))
def chan2 (x : Vec F S1x3x512x512 .f32) : FVec F S512x512 .f32 :=
  slab (View.ld x (Rect.unit (s := S1x3x512x512) ![0, 2, 0, 0] S1x1x512x512.size inb_S1x3x512x512_S1x1x512x512_0_2_0_0))

/-- One grid point's update of the scratch: from contents `s`, with the point's blocks of correct (`xc`), estimate
    (`xe`) and mask (`xm`). -/
def pointUpdate (xc xe xm : Vec F S1x3x512x512 .f32) (s : Vec F S1x1 .f32) : Vec F S1x1 .f32 :=
  accumulate s (chan0 xe) (chan0 xc) (chan0 xm) (chan1 xe) (chan1 xc) (chan1 xm) (chan2 xe) (chan2 xc) (chan2 xm)

/-- The zero block the first point starts the scratch from. -/
def resetBlock : Vec F S1x1 .f32 := shapeCast S1x1 zero11 shapeCasts_S1x1_S1x1

/-- A middle point leaves the scratch at its update of what the point before left. -/
theorem scratch_middle (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S1x3x512x512 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 x1 x2 : Vec F S1x3x512x512 .f32) (xs0 : Vec F S1x1 .f32) :
    sout0_B_0 c i a1 h1 a2 h2 a3 h3 a4 h4 a5 h5 hc0 hc1 x0 x1 x2 xs0 = pointUpdate x0 x1 x2 xs0 := by
  unfold sout0_B_0
  rw [View.read_writes_eq_canon _ _ _ (scover0_B_0 c i a1 h1 a2 h2 a3 h3 a4 h4 a5 h5 hc0 hc1 x0 x1 x2 xs0)]
  unfold kernelRun0_B
  dsimp only
  sl_unfold_words
  rw [View.canon_unit_zero zeros2]
  simp only [View.readAt_eq_ld, h1.read_unread, h2.read_unread, h3.read_unread, h5.read_unread, View.ld_unit_zero (S := S1x1) zeros2]
  exact payload_eq _ _ _ _ _ _ _ _ _ _

/-- The last point leaves the scratch at its update of what the point before left, -/
theorem scratch_last (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S1x3x512x512 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 x2 : Vec F S1x3x512x512 .f32) (xs0 : Vec F S1x1 .f32) :
    sout0_C_0 c i a1 h1 a2 h2 a3 h3 a4 h4 a5 h5 hc0 hc1 x0 x1 x2 xs0 = pointUpdate x0 x1 x2 xs0 := by
  unfold sout0_C_0
  rw [View.read_writes_eq_canon _ _ _ (scover0_C_0 c i a1 h1 a2 h2 a3 h3 a4 h4 a5 h5 hc0 hc1 x0 x1 x2 xs0)]
  unfold kernelRun0_C
  dsimp only
  sl_unfold_words
  rw [View.canon_unit_zero zeros2]
  simp only [View.readAt_eq_ld, h1.read_unread, h2.read_unread, h3.read_unread, h5.read_unread, View.ld_unit_zero (S := S1x1) zeros2]
  exact payload_eq _ _ _ _ _ _ _ _ _ _

/-- and the output's staging buffer at that scratch divided by the word of 48.0. -/
theorem output_last (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S1x3x512x512 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 x1 x2 : Vec F S1x3x512x512 .f32) (xs0 : Vec F S1x1 .f32) :
    out0_C_3 c i a1 h1 a2 h2 a3 h3 a4 h4 a5 h5 hc0 hc1 x0 x1 x2 xs0
      = divf (pointUpdate x0 x1 x2 xs0) (broadcast S1x1 (Scalar.ofBits .f32 0x42400000#32)) := by
  unfold out0_C_3
  rw [View.read_writes_eq_canon _ _ _ (cover0_C_3 c i a1 h1 a2 h2 a3 h3 a4 h4 a5 h5 hc0 hc1 x0 x1 x2 xs0)]
  unfold kernelRun0_C
  dsimp only
  sl_unfold_words
  rw [View.canon_unit_zero zeros2]
  simp only [View.readAt_eq_ld, h1.read_unread, h2.read_unread, h3.read_unread, h5.read_unread,
    View.ld_unit_zero (S := S1x1) zeros2, View.readCov_unit_zero (S := S1x1) _ zeros2]
  exact congrArg (fun s => divf s (broadcast S1x1 (Scalar.ofBits .f32 0x42400000#32))) (payload_eq _ _ _ _ _ _ _ _ _ _)

/-- The first point leaves the scratch at its update of the zero block. -/
theorem scratch_first (c : Dev nD) (i : grid0.Coords) (a1 : Memref sig .tc .vmem S1x3x512x512 .f32) (h1 : a1.IsWhole)
    (a2 : Memref sig .tc .vmem S1x3x512x512 .f32) (h2 : a2.IsWhole) (a3 : Memref sig .tc .vmem S1x3x512x512 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 x1 x2 : Vec F S1x3x512x512 .f32) :
    sout0_A_0 c i a1 h1 a2 h2 a3 h3 a4 h4 a5 h5 hc0 hc1 x0 x1 x2 = pointUpdate x0 x1 x2 resetBlock := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x1) zeros2, View.readCov_unit_zero (S := S1x1) _ zeros2]
  simp only [View.readAt_eq_ld, h1.read_unread, h2.read_unread, h3.read_unread, View.ld_unit_zero (S := S1x1) zeros2]
  exact payload_eq _ _ _ _ _ _ _ _ _ _

end Cert.KernelIdeal.Channel

end
-- ==== Proof.Accumulation.lean ====
/-
  The kernel's run, read: its result is the accumulated scratch after the last grid point, divided by 48.

  The scratch after point n is defined by recursion on n — the first point updates the zero block, each later point
  updates what the point before left — and the contents the frame run records for the scratch are exactly that, by
  induction on the point, the control case at each point decided from its position (first, middle, last).  The
  output's 1×1 block is written back once, after the last point, where the body stored the scratch divided by the
  word of 48.0; that one block is the whole 1×1 result array.  The reshape after the region views it as a scalar.
-/
import proofs.«126468_j40819369181889_1_alg».proof.Proof.Pieces
import Idealize.ShloMosaic.Lib.Pipeline.Value
import Idealize.ShloMosaic.Lib.StableHlo.Run
import Idealize.ShloMosaic.Lib.Tactic

set_option maxRecDepth 16384

noncomputable section

namespace Cert.KernelIdeal.Channel

open Idealize.ShloMosaic Idealize.ShloMosaic.TcCoe Idealize.SL.Sem Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-- The blocks of correct, estimate and mask the pipeline stages at point `t`, at their literal type. -/
abbrev blockC (c : Dev nD) (t : Fin cfg0.N) : Vec F S1x3x512x512 .f32 := iblk m c 0 t
abbrev blockE (c : Dev nD) (t : Fin cfg0.N) : Vec F S1x3x512x512 .f32 := iblk m c 1 t
abbrev blockM (c : Dev nD) (t : Fin cfg0.N) : Vec F S1x3x512x512 .f32 := iblk m c 2 t

/-- The scratch after point `n`: the first point updates the zero block, each later one what the point before left. -/
def scratchAfter (c : Dev nD) : (n : ℕ) → n < cfg0.N → Vec F S1x1 .f32
  | 0, h => pointUpdate (blockC m c ⟨0, h⟩) (blockE m c ⟨0, h⟩) (blockM m c ⟨0, h⟩) resetBlock
  | n + 1, h => pointUpdate (blockC m c ⟨n + 1, h⟩) (blockE m c ⟨n + 1, h⟩) (blockM m c ⟨n + 1, h⟩)
      (scratchAfter c n (Nat.lt_of_succ_lt h))

/-- The frame run's record of the scratch after each point is that recursion: by induction on the point. -/
theorem outsAt_scratch (c : Dev nD) : ∀ (n : ℕ) (h : n < cfg0.N), (outsAt0 m c n h).2 = scratchAfter m c n h
  | 0, h => by
    rw [outsAt0_A m c ⟨0, h⟩ rfl (by dsimp only; omega)]
    dsimp only
    exact scratch_first (F := F) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) scM0_0 (Memref.isWhole_whole _) _ _
      (iblk m c 0 ⟨0, h⟩) (iblk m c 1 ⟨0, h⟩) (iblk m c 2 ⟨0, h⟩)
  | n + 1, h => by
    have hN : cfg0.N = 16 := N_0
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      refine (scratch_last (F := F) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _) _ _
        (iblk m c 0 ⟨n + 1, h⟩) (iblk m c 1 ⟨n + 1, h⟩) (iblk m c 2 ⟨n + 1, h⟩) (outsAt0 m c n (Nat.lt_of_succ_lt h)).2).trans ?_
      exact congrArg (pointUpdate (blockC m c ⟨n + 1, h⟩) (blockE m c ⟨n + 1, h⟩) (blockM m c ⟨n + 1, h⟩)) (outsAt_scratch c n _)
    · rw [outsAt0_B m c ⟨n + 1, h⟩ h0 h1]
      dsimp only
      refine (scratch_middle (F := F) c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) scM0_0 (Memref.isWhole_whole _) _ _
        (iblk m c 0 ⟨n + 1, h⟩) (iblk m c 1 ⟨n + 1, h⟩) (iblk m c 2 ⟨n + 1, h⟩) (outsAt0 m c n (Nat.lt_of_succ_lt h)).2).trans ?_
      exact congrArg (pointUpdate (blockC m c ⟨n + 1, h⟩) (blockE m c ⟨n + 1, h⟩) (blockM m c ⟨n + 1, h⟩)) (outsAt_scratch c n _)

/-- The result array's contents: the scratch after the last point, divided by the word of 48.0. -/
abbrev result (c : Dev nD) : Buf (Elt F) ((c : Thread nD τ).loc main_v0) :=
  divf (scratchAfter m c t0_15.val t0_15.isLt) (broadcast S1x1 (Scalar.ofBits .f32 0x42400000#32))

/-- What the output's staging buffer holds after the last point is that. -/
theorem outsAt_output (c : Dev nD) : (outsAt0 m c t0_15.val t0_15.isLt).1 = result m c := by
  rw [outsAt0_C m c t0_15 (by decide) (by decide)]
  dsimp only
  refine (output_last (F := F) c (grid0.coords t0_15) (ms0_0 t0_15) (hs0_0 t0_15) (ms0_1 t0_15) (hs0_1 t0_15)
    (ms0_2 t0_15) (hs0_2 t0_15) (ms0_3 t0_15) (hs0_3 t0_15) scM0_0 (Memref.isWhole_whole _) _ _
    (iblk m c 0 t0_15) (iblk m c 1 t0_15) (iblk m c 2 t0_15) (outsAt0 m c 14 (by rw [show cfg0.N = 16 from N_0]; decide)).2).trans ?_
  refine congrArg (fun s : Vec F S1x1 .f32 => divf s (broadcast S1x1 (Scalar.ofBits .f32 0x42400000#32))) ?_
  exact congrArg (pointUpdate (blockC m c t0_15) (blockE m c t0_15) (blockM m c t0_15)) (outsAt_scratch m c 14 _)

/-- The one write-back, after the last point, writes it: the 1×1 block at zero offsets of the 1×1 array is the array. -/
theorem flushed_eq (c : Dev nD) (t : Fin cfg0.N) (hf : (cfg0.win 3).flush t = true) :
    (dats m 0 c).flushed 3 t = ((cfg0.win 3).blk t).view.read (Elt F) (result m c) := by
  have hN : cfg0.N = 16 := N_0
  have h15 : t.val = 15 := by have := (flush0_3 t).mp hf; have := t.isLt; omega
  obtain rfl : t = t0_15 := Fin.ext h15
  show (cfg0.win 3).cut (grid0.coords t0_15) ((dats m 0 c).after 3 t0_15) = _
  rw [after0_3, outsAt_output]
  have hz' : (fun a => win0_3.index t0_15 a * main_v0.ty.shape.size a) = fun _ => 0 := funext fun a => by fin_cases a <;> decide
  exact (Memref.read_access_unit_zero (Elt F) main_v0 hz' (fun a => by rw [congrFun hz' a]; simp) (result m c)).symm

/-- So the result array ends at `result`: the last point's block covers its one element. -/
theorem final_out (c : Dev nD) : (dats m 0 c).arrAt 3 cfg0.N = result m c :=
  (dats m 0 c).arrAt_eq_of_cover 3 (result m c) (flushed_eq m c) fun i =>
    ⟨t0_15, (flush0_3 t0_15).mpr rfl, by
      show i ∈ ((View.whole main_v0).slice (win0_3.rect t0_15)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_15 0 * win0_3.size 0 ≤ (i 0 : Nat) ∧ (i 0 : Nat) < win0_3.index t0_15 0 * win0_3.size 0 + win0_3.xsize (grid0.coords t0_15) 0
                  rw [show win0_3.index t0_15 0 * win0_3.size 0 = 0 from by decide +kernel, show win0_3.xsize (grid0.coords t0_15) 0 = 1 from by decide +kernel]; omega
      | ⟨1, _⟩ => show win0_3.index t0_15 1 * win0_3.size 1 ≤ (i 1 : Nat) ∧ (i 1 : Nat) < win0_3.index t0_15 1 * win0_3.size 1 + win0_3.xsize (grid0.coords t0_15) 1
                  rw [show win0_3.index t0_15 1 * win0_3.size 1 = 0 from by decide +kernel, show win0_3.xsize (grid0.coords t0_15) 1 = 1 from by decide +kernel]; omega⟩

/-- The reshape after the region reads the result array as a scalar. -/
theorem tail_eq (c : Dev nD) :
    Pipeline.afterTail₀ cfgs (dats m) 0 (V0 m) [hostOps1] c main_v1 = shapeCast S_ (result m c) shapeCasts_S1x1_S_ := by
  unfold Pipeline.afterTail₀
  show StableHlo.after hostOps1 _ (Proc.devRef .tc main_v1) = _
  after_results
  funext i
  exact congrFun (congrArg (fun x : Buf (Elt F) ((c : Thread nD τ).loc main_v0) => shapeCast S_ x shapeCasts_S1x1_S_)
    ((Pipeline.withArrays_arr spec0 launch0.win.arr_inj c _ _ 3).trans (final_out m c))) i

/-- The kernel's run, read: every weakly fair execution of @main terminates with the scalar result at the reshaped
    `result` and the three argument arrays unchanged. -/
theorem run : θ_run defs (onTc (τ := τ) (main (F := F))) ⟨m, fun _ => 0, ρ⟩ fun r => ∀ c : Dev nD,
      r.2.mem ((c : Thread nD τ).loc main_v1) = shapeCast S_ (result m c) shapeCasts_S1x1_S_
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Channel

end
-- ==== Proof.Quotient.lean ====
/-
  One channel's quotient as a function of its three 512×512 slabs, over the extended reals.

  For slabs e (estimate), c (correct), m (mask), indexed by row h and lane w:

      v = Σ e·e·m      n = Σ c·e·m      g = [v > θ]   (θ the value of the f32 word 0x3727C5AC, 1e-5 rounded)
      a = n / (v if g else 1) if g else 0
      q = (Σ m·(c − a·e)·(c − a·e)) / (Σ m)

  with Σ the double sum over rows and lanes.  The comparison, the two selections and the two divisions are the ideal
  instance's own scalar operations, left closed: both programs apply them to the same sums, so nothing about their
  values at a zero divisor or an infinite operand is used.
-/
import Idealize.ShloMosaic.PureOps.Ideal

noncomputable section

namespace Cert.MaskedScale

open Idealize.ShloMosaic

/-- The sum over a slab: rows outside, lanes inside. -/
def slabSum (f : Fin 512 → Fin 512 → EReal) : EReal := ∑ h : Fin 512, ∑ w : Fin 512, f h w

/-- v = Σ e·e·m. -/
def energy (e m : Fin 512 → Fin 512 → EReal) : EReal := slabSum fun h w => e h w * e h w * m h w

/-- n = Σ c·e·m. -/
def cross (e c m : Fin 512 → Fin 512 → EReal) : EReal := slabSum fun h w => c h w * e h w * m h w

/-- g = [v > θ]. -/
def exceeds (e m : Fin 512 → Fin 512 → EReal) : BitVec 1 := Ideal.cmp .ogt (energy e m) (Ideal.ofBits .f32 0x3727C5AC#32)

/-- a = n / (v if g else 1) if g else 0. -/
def fit (e c m : Fin 512 → Fin 512 → EReal) : EReal :=
  Scalar.select (exceeds e m)
    (Ideal.div (cross e c m) (Scalar.select (exceeds e m) (energy e m) (Ideal.ofBits .f32 0x3F800000#32)))
    (Ideal.ofBits .f32 0x00000000#32)

/-- q = (Σ m·(c − a·e)·(c − a·e)) / (Σ m). -/
def quotient (e c m : Fin 512 → Fin 512 → EReal) : EReal :=
  Ideal.div (slabSum fun h w => m h w * (c h w - fit e c m * e h w) * (c h w - fit e c m * e h w)) (slabSum m)

end Cert.MaskedScale

end
-- ==== Proof.ChannelValue.lean ====
/-
  The kernel's per-channel term read at the ideal instance.

  At extended reals a lane sum followed by a column sum of a 512×512 slab is the double sum over rows and lanes, the
  1×1 vectors the body carries read their one entry wherever they are indexed, and a 1×1 vector spread over the slab
  reads that entry at every position.  So the body's quotient for a channel, at its one index, is the quotient of
  Proof/Quotient.lean of the channel's three slabs read by coordinates.
-/
import proofs.«126468_j40819369181889_1_alg».proof.Proof.ChannelTerm
import proofs.«126468_j40819369181889_1_alg».proof.Proof.Quotient
import Idealize.ShloMosaic.Lib.ValueIdx
import Idealize.ShloMosaic.Lib.Pipeline.Value
import Idealize.ShloMosaic.PureOps.Ideal.Laws

noncomputable section

namespace Cert.KernelIdeal.Channel

open Idealize.ShloMosaic Idealize.ShloMosaic.ValueIdx Idealize.SL.Sem Cert.KernelIdeal Cert.KernelIdeal.Gen

/-- A slab read by row and lane. -/
abbrev coords (X : FVec Ideal S512x512 .f32) : Fin 512 → Fin 512 → EReal := fun h w => X (ix2 h w)

/-- A one-entry vector viewed 1×1 reads its entry. -/
theorem cast_one_apply (Y : FVec Ideal S1 .f32) (j : S1x1.Idx) :
    shapeCast S1x1 Y shapeCasts_S1_S1x1 j = Y (ix1 (0 : Fin 1)) :=
  shapeCast_apply Y shapeCasts_S1_S1x1 j (ix1 (0 : Fin 1)) (by
    rw [Shape.rowMajor_val_one, Shape.rowMajor_val_two]
    have h0 : (j 0).val < 1 := (j 0).isLt
    have h1 : (j 1).val < 1 := (j 1).isLt
    show 0 = (j 0).val * 1 + (j 1).val
    omega)

/-- A column of 512 viewed 512×1 reads row k at (k, 0). -/
theorem column_apply (Z : FVec Ideal S512 .f32) (k : Fin 512) (u : Fin 1) :
    shapeCast S512x1 Z shapeCasts_S512_S512x1 (ix2 k u) = Z (ix1 k) :=
  shapeCast_apply Z shapeCasts_S512_S512x1 (ix2 k u) (ix1 k) (by
    rw [Shape.rowMajor_val_one, Shape.rowMajor_val_two]
    have hu : u.val < 1 := u.isLt
    show k.val = k.val * 1 + u.val
    omega)

/-- The lane sum then the column sum of a slab is its double sum, at the 1×1 vector's one index. -/
theorem slabTotal_apply (X : FVec Ideal S512x512 .f32) (j : S1x1.Idx) :
    slabTotal X j = Cert.MaskedScale.slabSum (coords X) := by
  unfold slabTotal Cert.MaskedScale.slabSum
  refine (cast_one_apply _ j).trans ?_
  refine (Ideal.multiReduction_add_single _ 0x00000000#32 reduces_S512x1_S1 (.inl rfl) rfl (ix1 (0 : Fin 1))).trans ?_
  show ∑ h : Fin 512, _ = ∑ h : Fin 512, _
  refine Finset.sum_congr rfl fun h _ => ?_
  have e1 : reduces_S512x1_S1.lift (ix1 (0 : Fin 1)) h = ix2 h (0 : Fin 1) :=
    funext fun a => Fin.ext (by match a with | ⟨0, _⟩ => rfl | ⟨1, _⟩ => rfl)
  refine (congrArg (shapeCast S512x1 _ shapeCasts_S512_S512x1) e1).trans ?_
  refine (column_apply _ h (0 : Fin 1)).trans ?_
  refine (Ideal.multiReduction_add_single X 0x00000000#32 reduces_S512x512_S512 (.inl rfl) rfl (ix1 h)).trans ?_
  show ∑ w : Fin 512, _ = ∑ w : Fin 512, _
  refine Finset.sum_congr rfl fun w _ => ?_
  exact congrArg X (funext fun a => Fin.ext (by match a with | ⟨0, _⟩ => rfl | ⟨1, _⟩ => rfl))

theorem energy_apply (e m : FVec Ideal S512x512 .f32) (j : S1x1.Idx) :
    energy e m j = Cert.MaskedScale.energy (coords e) (coords m) := by
  unfold energy; rw [slabTotal_apply]; rfl

theorem cross_apply (e c m : FVec Ideal S512x512 .f32) (j : S1x1.Idx) :
    cross e c m j = Cert.MaskedScale.cross (coords e) (coords c) (coords m) := by
  unfold cross; rw [slabTotal_apply]; rfl

theorem exceeds_apply (e m : FVec Ideal S512x512 .f32) (j : S1x1.Idx) :
    exceeds e m j = Cert.MaskedScale.exceeds (coords e) (coords m) := by
  unfold exceeds Cert.MaskedScale.exceeds
  rw [cmpf_apply, energy_apply]
  rfl

theorem fit_apply (e c m : FVec Ideal S512x512 .f32) (j : S1x1.Idx) :
    fit e c m j = Cert.MaskedScale.fit (coords e) (coords c) (coords m) := by
  unfold fit Cert.MaskedScale.fit
  rw [select_apply, exceeds_apply, divf_apply, cross_apply, select_apply, exceeds_apply, energy_apply]
  rfl

/-- The fitted estimate at (h, w): the scale's one entry times e there. -/
theorem fitted_apply (e c m : FVec Ideal S512x512 .f32) (h w : Fin 512) :
    fitted e c m (ix2 h w) = Cert.MaskedScale.fit (coords e) (coords c) (coords m) * e (ix2 h w) := by
  unfold fitted
  rw [mulf_apply, broadcastTo_apply _ broadcasts_S1x1_S512x512 (ix2 h w) (ix2 (0 : Fin 1) (0 : Fin 1))
    (fun a => by
      match a with
      | ⟨0, _⟩ => show 0 = if (1 : Nat) = 1 then 0 else _; rw [if_pos rfl]
      | ⟨1, _⟩ => show 0 = if (1 : Nat) = 1 then 0 else _; rw [if_pos rfl]),
    shapeCast_self, fit_apply]

theorem weighted_apply (e c m : FVec Ideal S512x512 .f32) (h w : Fin 512) :
    weighted e c m (ix2 h w)
      = m (ix2 h w) * (c (ix2 h w) - Cert.MaskedScale.fit (coords e) (coords c) (coords m) * e (ix2 h w))
          * (c (ix2 h w) - Cert.MaskedScale.fit (coords e) (coords c) (coords m) * e (ix2 h w)) := by
  unfold weighted
  rw [mulf_apply, mulf_apply, subf_apply, fitted_apply]

/-- The body's quotient for a channel is the specification's, of the slabs read by coordinates. -/
theorem quot_apply (e c m : FVec Ideal S512x512 .f32) (j : S1x1.Idx) :
    quot e c m j = Cert.MaskedScale.quotient (coords e) (coords c) (coords m) := by
  unfold quot Cert.MaskedScale.quotient
  rw [divf_apply, slabTotal_apply, slabTotal_apply]
  refine congrArg (fun S => Ideal.div S _) ?_
  unfold Cert.MaskedScale.slabSum
  refine Finset.sum_congr rfl fun h _ => Finset.sum_congr rfl fun w _ => ?_
  exact weighted_apply e c m h w

/-- What the body stores into the scratch, at its one index: the scratch's entry plus the slice's total, from zero,
    channel by channel. -/
theorem accumulate_apply (s : Vec Ideal S1x1 .f32) (e0 c0 m0 e1 c1 m1 e2 c2 m2 : FVec Ideal S512x512 .f32) (j : S1x1.Idx) :
    accumulate s e0 c0 m0 e1 c1 m1 e2 c2 m2 j
      = s j + (((0 + Cert.MaskedScale.quotient (coords e0) (coords c0) (coords m0))
          + Cert.MaskedScale.quotient (coords e1) (coords c1) (coords m1))
          + Cert.MaskedScale.quotient (coords e2) (coords c2) (coords m2)) := by
  unfold accumulate
  rw [shapeCast_self, addf_apply, addf_apply, addf_apply, addf_apply, quot_apply, quot_apply, quot_apply]
  show _ + (((Ideal.ofBits .f32 0x00000000#32 + _) + _) + _) = _
  rw [Ideal.ofBits_zero_f32]

end Cert.KernelIdeal.Channel

end
-- ==== Proof.MeanAlgebra.lean ====
/-
  Extended-real algebra behind the masked scale-invariant error.

  For each of the 16 slices and 3 channels both programs form one quotient q(l, c).  The kernel keeps a running
  total over the slices, each slice adding ((0 + q(l,0)) + q(l,1)) + q(l,2), and at the end divides by 48.  The
  reference sums over the channels, then over the slices (each sum started from 0), divides by 16 and then by 3.

  Addition of extended reals is commutative and associative (the convention ⊤ + ⊥ = ⊥ included), so the two orders
  of summation agree whatever the q(l, c) are, infinite ones included; and dividing by a nonzero real is
  multiplying by its reciprocal, so dividing by 16 and then by 3 is dividing by 48 on every extended real.
  Nothing here needs the q(l, c) to be finite.
-/
import Idealize.ShloMosaic.PureOps.Ideal
import Idealize.ShloMosaic.PureOps.Ideal.Laws

noncomputable section

namespace Cert.MaskedScale

open Idealize.ShloMosaic

/-- The word of 16.0 denotes the real 16. -/
theorem ofBits_sixteen : Ideal.ofBits .f32 0x41800000#32 = ((16 : ℝ) : EReal) := by
  simp [Ideal.ofBits, Ideal.ieee, -EReal.coe_mul]; norm_num

/-- The word of 3.0 denotes the real 3. -/
theorem ofBits_three : Ideal.ofBits .f32 0x40400000#32 = ((3 : ℝ) : EReal) := by
  simp [Ideal.ofBits, Ideal.ieee, -EReal.coe_mul]; norm_num

/-- The word of 48.0 denotes the real 48. -/
theorem ofBits_fortyEight : Ideal.ofBits .f32 0x42400000#32 = ((48 : ℝ) : EReal) := by
  simp [Ideal.ofBits, Ideal.ieee, -EReal.coe_mul]; norm_num

/-- Dividing by 16 and then by 3 is dividing by 48: x · (1/16) · (1/3) = x · (1/48), for every extended real x. -/
theorem div_sixteen_div_three (x : EReal) :
    Ideal.div (Ideal.div x (Ideal.ofBits .f32 0x41800000#32)) (Ideal.ofBits .f32 0x40400000#32)
      = Ideal.div x (Ideal.ofBits .f32 0x42400000#32) := by
  rw [ofBits_sixteen, ofBits_three, ofBits_fortyEight,
    Ideal.div_coe (by norm_num : (16 : ℝ) ≠ 0), Ideal.div_coe (by norm_num : (3 : ℝ) ≠ 0),
    Ideal.div_coe (by norm_num : (48 : ℝ) ≠ 0), mul_assoc, ← EReal.coe_mul]
  congr 2
  norm_num

/-- One slice's total in the order the kernel adds it, from zero: ((0 + q 0) + q 1) + q 2. -/
def sliceTotal (q : Fin 3 → EReal) : EReal := ((0 + q 0) + q 1) + q 2

/-- It is the sum over the three channels. -/
theorem sliceTotal_eq_sum (q : Fin 3 → EReal) : sliceTotal q = ∑ c : Fin 3, q c := by
  simp only [sliceTotal, Fin.sum_univ_three, zero_add]

/-- The running total after slice `n`: started at 0 + (slice 0's total), each later slice added on the right. -/
def runningTotal (T : ℕ → EReal) : ℕ → EReal
  | 0 => 0 + T 0
  | n + 1 => runningTotal T n + T (n + 1)

/-- It is the sum of the slices' totals up to `n`. -/
theorem runningTotal_eq_sum (T : ℕ → EReal) (n : ℕ) : runningTotal T n = ∑ l ∈ Finset.range (n + 1), T l := by
  induction n with
  | zero => simp [runningTotal]
  | succ n ih => rw [runningTotal, ih, Finset.sum_range_succ (fun l => T l) (n + 1)]

/-- The kernel's accumulated total over all 16 slices is the reference's nested sum, each started from 0. -/
theorem runningTotal_fifteen (q : Fin 16 → Fin 3 → EReal) (T : ℕ → EReal)
    (hT : ∀ l : Fin 16, T l.val = sliceTotal (q l)) :
    runningTotal T 15 = 0 + ∑ l : Fin 16, (0 + ∑ c : Fin 3, q l c) := by
  rw [runningTotal_eq_sum, Finset.sum_range (fun l => T l), zero_add]
  refine Finset.sum_congr rfl fun l _ => ?_
  rw [hT l, sliceTotal_eq_sum, zero_add]

end Cert.MaskedScale

end
-- ==== Proof.KernelValue.lean ====
/-
  The kernel's result as a function of the three argument arrays, at the ideal instance.

  At grid point t the pipeline's blocks are slice t of the arrays: entry (0, k, h, w) of a block is entry (t, k, h, w)
  of its array, and the body's load of channel k reads entries (0, k, h, w).  So the body's quotient for channel k at
  point t is the specification's quotient q(t, k) of the arrays' slabs there, the scratch after point n is the running
  total of the slices' totals up to n, and the scalar result is the running total after the last point divided by 48.
-/
import proofs.«126468_j40819369181889_1_alg».proof.Proof.Accumulation
import proofs.«126468_j40819369181889_1_alg».proof.Proof.ChannelValue
import proofs.«126468_j40819369181889_1_alg».proof.Proof.MeanAlgebra

set_option maxRecDepth 16384

noncomputable section

namespace Cert.KernelIdeal.Channel

open Idealize.ShloMosaic Idealize.ShloMosaic.ValueIdx Idealize.ShloMosaic.TcCoe Idealize.SL.Sem Cert.KernelIdeal Cert.KernelIdeal.Gen
open Cert.MaskedScale (quotient sliceTotal runningTotal)

variable (m : (ℓ : Loc nD τ sig) → Buf (Elt Ideal) ℓ)

/-- The slice of the arrays a grid point works on. -/
def sliceOf (t : Fin cfg0.N) : Fin 16 := ⟨t.val, lt_of_lt_of_eq t.isLt N_0⟩

/-- An argument array's slab at slice l, channel k, by row and lane. -/
abbrev slabAt (x : S16x3x512x512.Idx → EReal) (l : Fin 16) (k : Fin 3) : Fin 512 → Fin 512 → EReal :=
  fun h w => x (ix4 l k h w)

/-- The three argument arrays on core c. -/
abbrev arrC (c : Dev nD) : S16x3x512x512.Idx → EReal := m ((c : Thread nD τ).loc main_arg0)
abbrev arrE (c : Dev nD) : S16x3x512x512.Idx → EReal := m ((c : Thread nD τ).loc main_arg1)
abbrev arrM (c : Dev nD) : S16x3x512x512.Idx → EReal := m ((c : Thread nD τ).loc main_arg2)

/-! ## A channel's load of a block, by coordinates -/

/-- The slab of a channel's load reads the block at (0, k, h, w). -/
theorem slab_load_apply (x : Vec Ideal S1x3x512x512 .f32) (k : Fin 3) (off : Fin 4 → Nat) (hoff : off = ![0, k.val, 0, 0])
    (inb : ∀ a, off a + S1x1x512x512.size a ≤ S1x3x512x512.size a) (h w : Fin 512) :
    slab (View.ld x (Rect.unit (s := S1x3x512x512) off S1x1x512x512.size inb)) (ix2 h w) = x (ix4 (0 : Fin 1) k h w) := by
  subst hoff
  refine (shapeCast_apply _ shapeCasts_S1x1x512x512_S512x512 (ix2 h w) (ix4 (0 : Fin 1) (0 : Fin 1) h w) (by
    rw [Shape.rowMajor_val_four, Shape.rowMajor_val_two]
    show ((0 * 1 + 0) * 512 + h.val) * 512 + w.val = h.val * 512 + w.val
    omega)).trans ?_
  refine congrArg x (funext fun a => Fin.ext ?_)
  match a with
  | ⟨0, _⟩ => show 0 + 1 * 0 = 0; omega
  | ⟨1, _⟩ => show k.val + 1 * 0 = k.val; omega
  | ⟨2, _⟩ => show 0 + 1 * h.val = h.val; omega
  | ⟨3, _⟩ => show 0 + 1 * w.val = w.val; omega

theorem chan0_apply (x : Vec Ideal S1x3x512x512 .f32) (h w : Fin 512) : chan0 x (ix2 h w) = x (ix4 (0 : Fin 1) (0 : Fin 3) h w) :=
  slab_load_apply x 0 _ rfl _ h w
theorem chan1_apply (x : Vec Ideal S1x3x512x512 .f32) (h w : Fin 512) : chan1 x (ix2 h w) = x (ix4 (0 : Fin 1) (1 : Fin 3) h w) :=
  slab_load_apply x 1 _ rfl _ h w
theorem chan2_apply (x : Vec Ideal S1x3x512x512 .f32) (h w : Fin 512) : chan2 x (ix2 h w) = x (ix4 (0 : Fin 1) (2 : Fin 3) h w) :=
  slab_load_apply x 2 _ rfl _ h w

/-- If a block is slice l of an array, its channel loads are the array's slabs at (l, k). -/
theorem coords_chan0 (x : Vec Ideal S1x3x512x512 .f32) (A : S16x3x512x512.Idx → EReal) (l : Fin 16)
    (hx : ∀ (k : Fin 3) (h w : Fin 512), x (ix4 (0 : Fin 1) k h w) = A (ix4 l k h w)) : coords (chan0 x) = slabAt A l 0 :=
  funext fun h => funext fun w => (chan0_apply x h w).trans (hx 0 h w)
theorem coords_chan1 (x : Vec Ideal S1x3x512x512 .f32) (A : S16x3x512x512.Idx → EReal) (l : Fin 16)
    (hx : ∀ (k : Fin 3) (h w : Fin 512), x (ix4 (0 : Fin 1) k h w) = A (ix4 l k h w)) : coords (chan1 x) = slabAt A l 1 :=
  funext fun h => funext fun w => (chan1_apply x h w).trans (hx 1 h w)
theorem coords_chan2 (x : Vec Ideal S1x3x512x512 .f32) (A : S16x3x512x512.Idx → EReal) (l : Fin 16)
    (hx : ∀ (k : Fin 3) (h w : Fin 512), x (ix4 (0 : Fin 1) k h w) = A (ix4 l k h w)) : coords (chan2 x) = slabAt A l 2 :=
  funext fun h => funext fun w => (chan2_apply x h w).trans (hx 2 h w)

/-! ## The blocks are slices of the arrays -/

/-- Every window's block index at point t is (t, 0, 0, 0): decided over the grid. -/
theorem index_correct : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index_estimate : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem index_mask : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)

theorem blockC_apply (c : Dev nD) (t : Fin cfg0.N) (k : Fin 3) (h w : Fin 512) :
    blockC m c t (ix4 (0 : Fin 1) k h w) = arrC m c (ix4 (sliceOf t) k h w) := by
  have hi := index_correct t
  show V m c main_arg0 (((cfg0.win 0).blk t).view.emb (ix4 (0 : Fin 1) k h w)) = _
  rw [V_main_arg0]
  refine congrArg (m ((c : Thread nD τ).loc main_arg0)) (funext fun a => Fin.ext ?_)
  match a with
  | ⟨0, _⟩ => show win0_0.index t 0 * 1 + 1 * 0 = t.val; rw [hi.1]; omega
  | ⟨1, _⟩ => show win0_0.index t 1 * 3 + 1 * k.val = k.val; rw [hi.2.1]; omega
  | ⟨2, _⟩ => show win0_0.index t 2 * 512 + 1 * h.val = h.val; rw [hi.2.2.1]; omega
  | ⟨3, _⟩ => show win0_0.index t 3 * 512 + 1 * w.val = w.val; rw [hi.2.2.2]; omega

theorem blockE_apply (c : Dev nD) (t : Fin cfg0.N) (k : Fin 3) (h w : Fin 512) :
    blockE m c t (ix4 (0 : Fin 1) k h w) = arrE m c (ix4 (sliceOf t) k h w) := by
  have hi := index_estimate t
  show V m c main_arg1 (((cfg0.win 1).blk t).view.emb (ix4 (0 : Fin 1) k h w)) = _
  rw [V_main_arg1]
  refine congrArg (m ((c : Thread nD τ).loc main_arg1)) (funext fun a => Fin.ext ?_)
  match a with
  | ⟨0, _⟩ => show win0_1.index t 0 * 1 + 1 * 0 = t.val; rw [hi.1]; omega
  | ⟨1, _⟩ => show win0_1.index t 1 * 3 + 1 * k.val = k.val; rw [hi.2.1]; omega
  | ⟨2, _⟩ => show win0_1.index t 2 * 512 + 1 * h.val = h.val; rw [hi.2.2.1]; omega
  | ⟨3, _⟩ => show win0_1.index t 3 * 512 + 1 * w.val = w.val; rw [hi.2.2.2]; omega

theorem blockM_apply (c : Dev nD) (t : Fin cfg0.N) (k : Fin 3) (h w : Fin 512) :
    blockM m c t (ix4 (0 : Fin 1) k h w) = arrM m c (ix4 (sliceOf t) k h w) := by
  have hi := index_mask t
  show V m c main_arg2 (((cfg0.win 2).blk t).view.emb (ix4 (0 : Fin 1) k h w)) = _
  rw [V_main_arg2]
  refine congrArg (m ((c : Thread nD τ).loc main_arg2)) (funext fun a => Fin.ext ?_)
  match a with
  | ⟨0, _⟩ => show win0_2.index t 0 * 1 + 1 * 0 = t.val; rw [hi.1]; omega
  | ⟨1, _⟩ => show win0_2.index t 1 * 3 + 1 * k.val = k.val; rw [hi.2.1]; omega
  | ⟨2, _⟩ => show win0_2.index t 2 * 512 + 1 * h.val = h.val; rw [hi.2.2.1]; omega
  | ⟨3, _⟩ => show win0_2.index t 3 * 512 + 1 * w.val = w.val; rw [hi.2.2.2]; omega

/-! ## The scratch is the running total -/

/-- The quotient of slice l, channel k, of the three arrays on core c. -/
def quotAt (c : Dev nD) (l : Fin 16) (k : Fin 3) : EReal :=
  quotient (slabAt (arrE m c) l k) (slabAt (arrC m c) l k) (slabAt (arrM m c) l k)

/-- Slice l's total in the kernel's order of addition (zero past the grid). -/
def sliceValue (c : Dev nD) (l : ℕ) : EReal := if h : l < 16 then sliceTotal (quotAt m c ⟨l, h⟩) else 0

/-- One point's update adds its slice's total to the scratch's entry. -/
theorem pointUpdate_apply (c : Dev nD) (t : Fin cfg0.N) (s : Vec Ideal S1x1 .f32) (j : S1x1.Idx) :
    pointUpdate (blockC m c t) (blockE m c t) (blockM m c t) s j = s j + sliceValue m c t.val := by
  unfold pointUpdate
  rw [accumulate_apply,
    coords_chan0 (blockE m c t) (arrE m c) (sliceOf t) (blockE_apply m c t),
    coords_chan0 (blockC m c t) (arrC m c) (sliceOf t) (blockC_apply m c t),
    coords_chan0 (blockM m c t) (arrM m c) (sliceOf t) (blockM_apply m c t),
    coords_chan1 (blockE m c t) (arrE m c) (sliceOf t) (blockE_apply m c t),
    coords_chan1 (blockC m c t) (arrC m c) (sliceOf t) (blockC_apply m c t),
    coords_chan1 (blockM m c t) (arrM m c) (sliceOf t) (blockM_apply m c t),
    coords_chan2 (blockE m c t) (arrE m c) (sliceOf t) (blockE_apply m c t),
    coords_chan2 (blockC m c t) (arrC m c) (sliceOf t) (blockC_apply m c t),
    coords_chan2 (blockM m c t) (arrM m c) (sliceOf t) (blockM_apply m c t)]
  unfold sliceValue
  rw [dif_pos (lt_of_lt_of_eq t.isLt N_0)]
  rfl

/-- The zero block reads zero. -/
theorem resetBlock_apply (j : S1x1.Idx) : (resetBlock : Vec Ideal S1x1 .f32) j = 0 := by
  unfold resetBlock
  rw [shapeCast_self]
  show Ideal.ofBits .f32 0x00000000#32 = 0
  exact Ideal.ofBits_zero_f32

/-- The scratch after point n is the running total of the slices' totals up to n: by induction on the point. -/
theorem scratchAfter_apply (c : Dev nD) : ∀ (n : ℕ) (h : n < cfg0.N) (j : S1x1.Idx),
    scratchAfter m c n h j = runningTotal (sliceValue m c) n
  | 0, h, j => by
    show pointUpdate (blockC m c ⟨0, h⟩) (blockE m c ⟨0, h⟩) (blockM m c ⟨0, h⟩) resetBlock j = _
    rw [pointUpdate_apply, resetBlock_apply]
    rfl
  | n + 1, h, j => by
    show pointUpdate (blockC m c ⟨n + 1, h⟩) (blockE m c ⟨n + 1, h⟩) (blockM m c ⟨n + 1, h⟩)
      (scratchAfter m c n (Nat.lt_of_succ_lt h)) j = _
    rw [pointUpdate_apply, scratchAfter_apply c n]
    rfl

/-- The kernel's scalar result: the nested sums over slices and channels, each from zero, divided by 48. -/
theorem result_apply (c : Dev nD) (i : S_.Idx) :
    shapeCast S_ (result m c) shapeCasts_S1x1_S_ i
      = Ideal.div (0 + ∑ l : Fin 16, (0 + ∑ k : Fin 3, quotAt m c l k)) (Ideal.ofBits .f32 0x42400000#32) := by
  refine (shapeCast_apply _ shapeCasts_S1x1_S_ i (ix2 (0 : Fin 1) (0 : Fin 1)) (by
    rw [Shape.rowMajor_val_two]
    show 0 * 1 + 0 = (Shape.rowMajorPi _ i).val
    rw [Shape.rowMajorPi_zero])).trans ?_
  show Ideal.div (scratchAfter m c t0_15.val t0_15.isLt (ix2 (0 : Fin 1) (0 : Fin 1))) (Ideal.ofBits .f32 0x42400000#32) = _
  rw [scratchAfter_apply]
  refine congrArg (fun S => Ideal.div S _) ?_
  refine Cert.MaskedScale.runningTotal_fifteen (quotAt m c) (sliceValue m c) fun l => ?_
  unfold sliceValue
  rw [dif_pos l.isLt]

end Cert.KernelIdeal.Channel

end
-- ==== Proof.ReferenceValue.lean ====
/-
  The reference's result read at the ideal instance.

  The host sums over the two trailing axes of a [16,3,512,512] array at once; at extended reals that sum, at (l, k),
  is the initial value plus the double sum over rows and lanes of the array at (l, k, h, w).  With the generated
  stage-by-stage readings of the other operations, the reference's quotient of sums at (l, k) is the quotient of
  Proof/Quotient.lean of the three arguments' slabs at (l, k), and its scalar result is

      ((0 + Σ_l (0 + Σ_k q(l, k))) / 16) / 3.
-/
import proofs.«126468_j40819369181889_1_alg».proof.Proof.Gen.ReferenceIdeal.Read
import proofs.«126468_j40819369181889_1_alg».proof.Proof.Quotient
import Idealize.ShloMosaic.Lib.ValueIdx
import Idealize.ShloMosaic.PureOps.Ideal.Laws

noncomputable section

namespace Cert.ReferenceIdeal.RefValue

open Idealize.ShloMosaic Idealize.ShloMosaic.ValueIdx Idealize.SL.Sem
open Cert.ReferenceIdeal Cert.ReferenceIdeal.Gen Cert.ReferenceIdeal.Read

/-- The slab of an argument array at slice l, channel k, by row and lane. -/
abbrev slabAt (x : S16x3x512x512.Idx → EReal) (l : Fin 16) (k : Fin 3) : Fin 512 → Fin 512 → EReal :=
  fun h w => x (ix4 l k h w)

/-- Dropping the two trailing coordinates of (l, k, h, w) leaves (l, k). -/
theorem drop_ix4 (l : Fin 16) (k : Fin 3) (h w : Fin 512) :
    reducesTo_S16x3x512x512_S16x3_d2_3.drop (ix4 l k h w) = ix2 l k :=
  funext fun b => by match b with | ⟨0, _⟩ => rfl | ⟨1, _⟩ => rfl

/-- An index that drops to (l, k) is (l, k, its row, its lane). -/
theorem eq_ix4_of_drop (i : S16x3x512x512.Idx) (l : Fin 16) (k : Fin 3)
    (hd : reducesTo_S16x3x512x512_S16x3_d2_3.drop i = ix2 l k) : i = ix4 l k (i 2) (i 3) :=
  funext fun a => by
    match a with
    | ⟨0, _⟩ => exact Fin.ext (show (i 0).val = l.val from congrArg Fin.val (congrFun hd 0))
    | ⟨1, _⟩ => exact Fin.ext (show (i 1).val = k.val from congrArg Fin.val (congrFun hd 1))
    | ⟨2, _⟩ => rfl
    | ⟨3, _⟩ => rfl

/-- The host's sum over the two trailing axes, at (l, k): the initial value plus the slab's double sum. -/
theorem hostSum_apply (Y : S16x3x512x512.Idx → EReal) (init : EReal) (l : Fin 16) (k : Fin 3) :
    Ideal.hostReduceAdd reducesTo_S16x3x512x512_S16x3_d2_3 Y init (ix2 l k)
      = init + Cert.MaskedScale.slabSum (slabAt Y l k) := by
  unfold Ideal.hostReduceAdd Cert.MaskedScale.slabSum
  refine congrArg (init + ·) ?_
  rw [← Finset.sum_product' (Finset.univ : Finset (Fin 512)) (Finset.univ : Finset (Fin 512)) (fun h w => Y (ix4 l k h w))]
  refine Finset.sum_nbij' (fun i => ((i 2 : Fin 512), (i 3 : Fin 512))) (fun p => ix4 l k p.1 p.2) ?_ ?_ ?_ ?_ ?_
  · intro i _; exact Finset.mem_product.mpr ⟨Finset.mem_univ _, Finset.mem_univ _⟩
  · intro p _; exact Finset.mem_filter.mpr ⟨Finset.mem_univ _, drop_ix4 l k p.1 p.2⟩
  · intro i hi; exact (eq_ix4_of_drop i l k (Finset.mem_filter.mp hi).2).symm
  · intro p _; rfl
  · intro i hi; exact congrArg Y (eq_ix4_of_drop i l k (Finset.mem_filter.mp hi).2)

variable (x0 x1 x2 : (⟨S16x3x512x512, .f32⟩ : BufTy).Contents (Elt Ideal))

/-- Σ e·e·m at (l, k). -/
theorem energy_apply (l : Fin 16) (k : Fin 3) :
    val_main_v2 (F := Ideal) x1 x2 (ix2 l k) = Cert.MaskedScale.energy (slabAt x1 l k) (slabAt x2 l k) := by
  unfold val_main_v2
  simp only [Host.reduceAdd, Ideal.hostReduceAdd_def]
  rw [hostSum_apply]
  show Ideal.ofBits .f32 0x00000000#32 + _ = _
  rw [Ideal.ofBits_zero_f32, zero_add]
  rfl

/-- Σ c·e·m at (l, k). -/
theorem cross_apply (l : Fin 16) (k : Fin 3) :
    val_main_v5 (F := Ideal) x0 x1 x2 (ix2 l k) = Cert.MaskedScale.cross (slabAt x1 l k) (slabAt x0 l k) (slabAt x2 l k) := by
  unfold val_main_v5
  simp only [Host.reduceAdd, Ideal.hostReduceAdd_def]
  rw [hostSum_apply]
  show Ideal.ofBits .f32 0x00000000#32 + _ = _
  rw [Ideal.ofBits_zero_f32, zero_add]
  rfl

/-- The comparison with the threshold word at (l, k). -/
theorem exceeds_apply (l : Fin 16) (k : Fin 3) :
    val_main_v7 (F := Ideal) x1 x2 (ix2 l k) = Cert.MaskedScale.exceeds (slabAt x1 l k) (slabAt x2 l k) := by
  rw [val_main_v7_apply, val_main_v6_apply, energy_apply]
  rfl

/-- The fitted scale at (l, k). -/
theorem fit_apply (l : Fin 16) (k : Fin 3) :
    val_main_v10 (F := Ideal) x0 x1 x2 (ix2 l k) = Cert.MaskedScale.fit (slabAt x1 l k) (slabAt x0 l k) (slabAt x2 l k) := by
  rw [val_main_v10_apply, val_main_v9_apply, val_main_v8_apply, exceeds_apply, cross_apply, energy_apply,
    val_main_call1_v1_apply, val_main_call0_v1_apply]
  rfl

/-- The scale spread back over the slab reads the scale at (l, k). -/
theorem spread_apply (l : Fin 16) (k : Fin 3) (h w : Fin 512) :
    val_main_v12 (F := Ideal) x0 x1 x2 (ix4 l k h w) = Cert.MaskedScale.fit (slabAt x1 l k) (slabAt x0 l k) (slabAt x2 l k) := by
  rw [val_main_v12_apply, val_main_v11_apply,
    show idx_main_v11 (idx_main_v12 (ix4 l k h w)) = ix2 l k from
      funext fun a => Fin.ext (by match a with | ⟨0, _⟩ => rfl | ⟨1, _⟩ => rfl),
    fit_apply]

/-- Σ m·(c − a·e)·(c − a·e) at (l, k). -/
theorem residual_apply (l : Fin 16) (k : Fin 3) :
    val_main_v17 (F := Ideal) x0 x1 x2 (ix2 l k)
      = Cert.MaskedScale.slabSum fun h w =>
          slabAt x2 l k h w * (slabAt x0 l k h w - Cert.MaskedScale.fit (slabAt x1 l k) (slabAt x0 l k) (slabAt x2 l k) * slabAt x1 l k h w)
            * (slabAt x0 l k h w - Cert.MaskedScale.fit (slabAt x1 l k) (slabAt x0 l k) (slabAt x2 l k) * slabAt x1 l k h w) := by
  unfold val_main_v17
  simp only [Host.reduceAdd, Ideal.hostReduceAdd_def]
  rw [hostSum_apply]
  show Ideal.ofBits .f32 0x00000000#32 + _ = _
  rw [Ideal.ofBits_zero_f32, zero_add]
  unfold Cert.MaskedScale.slabSum
  refine Finset.sum_congr rfl fun h _ => Finset.sum_congr rfl fun w _ => ?_
  show val_main_v16 (F := Ideal) x0 x1 x2 (ix4 l k h w) = _
  rw [val_main_v16_apply, val_main_v15_apply, val_main_v14_apply, val_main_v13_apply, spread_apply]
  rfl

/-- Σ m at (l, k). -/
theorem mask_apply (l : Fin 16) (k : Fin 3) :
    val_main_v18 (F := Ideal) x2 (ix2 l k) = Cert.MaskedScale.slabSum (slabAt x2 l k) := by
  unfold val_main_v18
  simp only [Host.reduceAdd, Ideal.hostReduceAdd_def]
  rw [hostSum_apply]
  show Ideal.ofBits .f32 0x00000000#32 + _ = _
  rw [Ideal.ofBits_zero_f32, zero_add]

/-- The reference's quotient of sums at (l, k) is the specification's. -/
theorem quotient_apply (l : Fin 16) (k : Fin 3) :
    val_main_v19 (F := Ideal) x0 x1 x2 (ix2 l k)
      = Cert.MaskedScale.quotient (slabAt x1 l k) (slabAt x0 l k) (slabAt x2 l k) := by
  rw [val_main_v19_apply, residual_apply, mask_apply]
  rfl

/-- Rank-1 indices of extent 16 are their one coordinate. -/
def idx16 : S16.Idx ≃ Fin 16 where
  toFun j := j 0
  invFun l := ix1 l
  left_inv j := (eq_ix1 j).symm
  right_inv _ := rfl

/-- The reference's scalar result: the nested sums, each from zero, divided by 16 and then by 3. -/
theorem result_apply (i : S_.Idx) :
    val_main_v23 (F := Ideal) x0 x1 x2 i
      = Ideal.div (Ideal.div
          (0 + ∑ l : Fin 16, (0 + ∑ k : Fin 3, Cert.MaskedScale.quotient (slabAt x1 l k) (slabAt x0 l k) (slabAt x2 l k)))
          (Ideal.ofBits .f32 0x41800000#32)) (Ideal.ofBits .f32 0x40400000#32) := by
  rw [val_main_v23_apply, val_main_v22_apply, val_main_v21_apply]
  show Ideal.div (Ideal.div (Ideal.ofBits .f32 0x00000000#32 + _) _) _ = _
  rw [Ideal.ofBits_zero_f32, ← Equiv.sum_comp idx16.symm]
  refine congrArg (fun S => Ideal.div (Ideal.div (0 + S) _) _) (Finset.sum_congr rfl fun l _ => ?_)
  show val_main_v20 (F := Ideal) x0 x1 x2 (ix1 l) = _
  rw [val_main_v20_apply]
  show Ideal.ofBits .f32 0x00000000#32 + _ = _
  rw [Ideal.ofBits_zero_f32]
  refine congrArg (0 + ·) (Finset.sum_congr rfl fun k _ => ?_)
  rw [show idx_main_v20 (ix1 l) k = ix2 l k from funext fun a => Fin.ext (by match a with | ⟨0, _⟩ => rfl | ⟨1, _⟩ => rfl),
    quotient_apply]

end Cert.ReferenceIdeal.RefValue

end
-- ==== Proof.lean ====
/-
  A masked, scale-invariant squared error: the kernel against its reference.

  For three arrays of shape [16, 3, 512, 512] — correct, estimate, mask — and each slice l and channel k, with sums
  over the 512 × 512 slab,

      v = Σ e·e·m     n = Σ c·e·m     a = n / v if v > θ else 0     q(l, k) = (Σ m·(c − a·e)²) / (Σ m),

  θ the value of the f32 word nearest 1e-5, the same word in both programs.  The reference returns
  ((Σ_l Σ_k q(l, k)) / 16) / 3.  The kernel visits the slices in order on a grid of 16 points, keeps the total in a
  1×1 scratch that it zeroes at the first point, adds ((0 + q(l,0)) + q(l,1)) + q(l,2) at point l, and at the last
  point writes the scratch divided by 48 to its 1×1 output, which @main reshapes to a scalar.

  Over the extended reals the two are one function of the arguments.  The comparison, the selections and the inner
  divisions are applied by both programs to the same sums, so their values at a zero divisor or an infinite operand
  never enter; a lane sum followed by a column sum is the slab's double sum, as is the host's sum over two axes; sums
  of extended reals may be re-associated and re-ordered; and dividing by 16 and then by 3 is dividing by 48 on every
  extended real.  The precondition (finite inputs) is not used.

  The modules: Proof/Quotient.lean states q over extended reals; Proof/MeanAlgebra.lean the laws just named;
  Proof/ChannelTerm.lean writes one channel of the body as a pure function and shows the body's stored value is the
  scratch plus three such channels; Proof/ChannelValue.lean reads that function at extended reals as q;
  Proof/Pieces.lean and Proof/Accumulation.lean read the kernel's run (what each of its three control cases leaves,
  the scratch after every point by induction, the one write-back, the reshape); Proof/KernelValue.lean reads the
  blocks as slices of the arrays and the result as the nested sum over 48; Proof/ReferenceValue.lean reads the
  reference's stages as q and its result as the nested sum over 16 and over 3.
-/
import proofs.«126468_j40819369181889_1_alg».proof.Defs
import proofs.«126468_j40819369181889_1_alg».proof.Proof.Gen.Kernel
import proofs.«126468_j40819369181889_1_alg».proof.Proof.Gen.Kernel.Skeleton
import proofs.«126468_j40819369181889_1_alg».proof.Proof.Gen.Kernel.Launch
import proofs.«126468_j40819369181889_1_alg».proof.Proof.Gen.Kernel.Points
import proofs.«126468_j40819369181889_1_alg».proof.Proof.Gen.Kernel.Frame
import proofs.«126468_j40819369181889_1_alg».proof.Proof.Gen.KernelIdeal
import proofs.«126468_j40819369181889_1_alg».proof.Proof.Gen.KernelIdeal.Skeleton
import proofs.«126468_j40819369181889_1_alg».proof.Proof.Gen.KernelIdeal.Launch
import proofs.«126468_j40819369181889_1_alg».proof.Proof.Gen.KernelIdeal.Points
import proofs.«126468_j40819369181889_1_alg».proof.Proof.Gen.KernelIdeal.Frame
import proofs.«126468_j40819369181889_1_alg».proof.Proof.Gen.ReferenceIdeal
import proofs.«126468_j40819369181889_1_alg».proof.Proof.Gen.ReferenceIdeal.Run
import proofs.«126468_j40819369181889_1_alg».proof.Proof.Gen.ReferenceIdeal.Read
import proofs.«126468_j40819369181889_1_alg».proof.Proof.Gen.Pre_finite_inputs
import proofs.«126468_j40819369181889_1_alg».proof.Proof.KernelValue
import proofs.«126468_j40819369181889_1_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the three arguments both idealized programs end at
    (0 + Σ_l (0 + Σ_k q(l, k))) / 48: the kernel by its accumulated scratch, the reference by its nested sums divided
    by 16 and then by 3. -/
theorem algebraic : Cert.algebraic_KernelIdeal_ReferenceIdeal := by
  intro m ρ m' ρ' _ hagree
  refine ⟨fun c => shapeCast Cert.KernelIdeal.S_ (Cert.KernelIdeal.Channel.result m c) Cert.KernelIdeal.Gen.shapeCasts_S1x1_S_,
    Cert.KernelIdeal.Channel.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v23_eq (F := Ideal) _ _ _).trans ?_
  funext i
  rw [Cert.ReferenceIdeal.RefValue.result_apply, Cert.MaskedScale.div_sixteen_div_three, (hagree c).1, (hagree c).2.1, (hagree c).2.2]
  exact (Cert.KernelIdeal.Channel.result_apply m c i).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
